-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x64 : Shape := ⟨2, ![1000000, 64]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S2x1000000 32) (main_arg2 : FVec F S1000000x64 .f32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S2x1000000 : Shape := ⟨2, ![2, 1000000]⟩
abbrev S1000000x64 : Shape := ⟨2, ![1000000, 64]⟩
abbrev S128x64 : Shape := ⟨2, ![128, 64]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S20000x64 : Shape := ⟨2, ![20000, 64]⟩
abbrev S1x64 : Shape := ⟨2, ![1, 64]⟩

abbrev nBuf : Space → Nat
  | .hbm => 27
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x64, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x128_S128x64_S5000x64_1_0_0_1_n_n_wf : DotDims.WF S5000x128 S128x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S1000000x64.size a
  hwx1_0 : ∀ i : grid1.Coords, EltTy.bits .f32 = 32 ∨ (Rect.block (s := S1000000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S1000000x64.size a
  hwx1_1 : ∀ i : grid1.Coords, EltTy.bits .f32 = 32 ∨ (Rect.block (s := S1000000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1000000x64.size a
  hwx1_2 : ∀ i : grid1.Coords, EltTy.bits .f32 = 32 ∨ (Rect.block (s := S1000000x64) S20000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x64 : Shape := ⟨2, ![1000000, 64]⟩
abbrev S128x64 : Shape := ⟨2, ![128, 64]⟩
abbrev S64 : Shape := ⟨1, ![64]⟩
abbrev S100000x64 : Shape := ⟨2, ![100000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x64, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Project.lean ====
/-
  The first region. Its grid has 20 points; point `t` loads rows `5000 t … 5000 t + 4999` of the left
  argument (100000 × 128) and the whole right argument (128 × 64), multiplies them into a zero accumulator and
  stores the 5000 × 64 block of products as rows `5000 t …` of the output. At the exact instance the change of
  float format before the product is the identity and the product of a block is, entry by entry, the sum over the
  128 contracted positions of left entry times right entry. The 20 row blocks tile the 100000 rows, so the output
  array ends holding, at (r, j), the sum over k of left (r, k) · right (k, j).
-/
import proofs.«174056_j51737176047901_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen
open Idealize.ShloMosaic Idealize.ShloMosaic.TcCoe Idealize.SL.Sem
open Idealize.ShloMosaic.Pipeline (Dat)

/-! ## The product of the whole arrays, index by index -/

/-- The left factor's index for output index `i` and contracted position `k`: (row of `i`, `k`). -/
abbrev lrow (i : S100000x64.Idx) (k : Fin 128) : S100000x128.Idx := fun a => match a with
  | ⟨0, _⟩ => ⟨(i 0).val, (i 0).isLt⟩
  | ⟨1, _⟩ => ⟨k.val, k.isLt⟩
/-- The right factor's index: (`k`, column of `i`). -/
abbrev rcol (i : S100000x64.Idx) (k : Fin 128) : S128x64.Idx := fun a => match a with
  | ⟨0, _⟩ => ⟨k.val, k.isLt⟩
  | ⟨1, _⟩ => ⟨(i 1).val, (i 1).isLt⟩

/-- `x · w`: entry (r, j) is the sum over the 128 positions k of x (r, k) · w (k, j). -/
def prod (x : FVec Ideal S100000x128 .f32) (w : FVec Ideal S128x64 .f32) : FVec Ideal S100000x64 .f32 :=
  fun i => ∑ k : Fin 128, x (lrow i k) * w (rcol i k)

/-! ## One block's product -/

abbrev blrow (j : S5000x64.Idx) (k : Fin 128) : S5000x128.Idx := fun a => match a with
  | ⟨0, _⟩ => ⟨(j 0).val, (j 0).isLt⟩
  | ⟨1, _⟩ => ⟨k.val, k.isLt⟩
abbrev brcol (j : S5000x64.Idx) (k : Fin 128) : S128x64.Idx := fun a => match a with
  | ⟨0, _⟩ => ⟨k.val, k.isLt⟩
  | ⟨1, _⟩ => ⟨(j 1).val, (j 1).isLt⟩

theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at entry `j` of the block: the narrowing of both operands is the identity on exact
    values and the accumulator is zero, so it is the sum over k of (left block) (j₀, k) · (right block) (k, j₁). -/
theorem pay_apply (x0 : FVec Ideal S5000x128 .f32) (x1 : FVec Ideal S128x64 .f32) (j : S5000x64.Idx) :
    k0_pay1 (F := Ideal) x0 x1 j = ∑ k : Fin 128, x0 (blrow j k) * x1 (brcol j k) := by
  unfold k0_pay1
  show FloatOps.matmul dot_S5000x128_S128x64_S5000x64_1_0_0_1_n_n none (truncf .bf16 x0 bitsLt_bf16_f32) (truncf .bf16 x1 bitsLt_bf16_f32) (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blrow j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = brcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The left and the right array as the region finds them, at their literal types. -/
abbrev xarr (c : Dev nD) : FVec Ideal S100000x128 .f32 := V c main_arg0
abbrev warr (c : Dev nD) : FVec Ideal S128x64 .f32 := V c main_arg3

/-- The three windows' block indices at point `t`: the left operand's and the output's row block is `t`, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays the region finds. -/
theorem flushed_eq (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x64) zero_off]
  obtain ⟨e0, e1, e2, e3, e4, e5⟩ := idx_facts t
  funext j
  refine (pay_apply _ _ _).trans ?_
  show _ = ∑ k : Fin 128, xarr V c (lrow (((cfg0.win 2).blk t).view.emb j) k) * warr V c (rcol (((cfg0.win 2).blk t).view.emb j) k)
  refine Finset.sum_congr rfl fun k _ => ?_
  have h0 : ((cfg0.win 0).blk t).view.emb (blrow j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (brcol j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  show xarr V c (((cfg0.win 0).blk t).view.emb (blrow j k)) * warr V c (((cfg0.win 1).blk t).view.emb (brcol j k)) = _
  rw [h0, h1]

/-- An index of the output array is in point `t`'s block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `r` lies in the block of point `r / 5000`: the 20 blocks tile the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e5]; omega

/-- The output array after the region: the product of the two arrays it was entered with. -/
theorem final (c : Dev nD) : (dat0 V c).arrAt 2 cfg0.N = prod (xarr V c) (warr V c) :=
  (dat0 V c).arrAt_eq_of_cover 2 (prod (xarr V c) (warr V c)) (fun t _ => flushed_eq V c t) cover

end Cert.KernelIdeal.Project

end
-- ==== Proof.Scale.lean ====
/-
  The second region. Its grid has 50 points; point `t` loads rows `20000 t … 20000 t + 19999` of both its
  1000000 × 64 operands, multiplies them entry by entry (the reshape to the same shape in between is the
  identity) and stores the block as the same rows of the output. The 50 row blocks tile the 1000000 rows, so the
  output array ends holding the entrywise product of the two arrays the region was entered with.
-/
import proofs.«174056_j51737176047901_1_alg».proof.Proof.Gen.KernelIdeal.Frame
import Idealize.ShloMosaic.Lib.Pipeline.Value
import Idealize.ShloMosaic.Lib.ValueIdx

set_option maxRecDepth 16384

noncomputable section

namespace Cert.KernelIdeal.Scale

open Cert.KernelIdeal Cert.KernelIdeal.Gen
open Idealize.ShloMosaic Idealize.ShloMosaic.TcCoe Idealize.SL.Sem
open Idealize.ShloMosaic.Pipeline (Dat)

/-- What the body stores, at entry `j` of the block: the product of the two loaded entries. -/
theorem pay_apply (x0 x1 : FVec Ideal S20000x64 .f32) (j : S20000x64.Idx) :
    k1_pay1 (F := Ideal) x0 x1 j = x0 j * x1 j := by
  unfold k1_pay1
  show mulf (shapeCast S20000x64 x0 shapeCasts_S20000x64_S20000x64) x1 j = _
  rw [shapeCast_self]
  rfl

variable (V : (c : Dev nD) → (b : Ref sig .tc) → Buf (Elt Ideal) ((c : Thread nD τ).loc b))

theorem zero_off : (![0, 0] : Fin 2 → Nat) = fun _ => 0 := funext fun a => by fin_cases a <;> rfl

/-- The two operand arrays as the region finds them, at their literal types. -/
abbrev garr (c : Dev nD) : FVec Ideal S1000000x64 .f32 := V c main_v11
abbrev aarr (c : Dev nD) : FVec Ideal S1000000x64 .f32 := V c main_arg2

/-- All three windows move together: at point `t` each one's row block is `t` and its column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the entrywise product of the two arrays the region finds. -/
theorem flushed_eq (c : Dev nD) (t : Fin cfg1.N) :
    (dat1 V c).flushed 2 t = ((cfg1.win 2).blk t).view.read (Elt Ideal) (mulf (garr V c) (aarr V c)) := by
  show (cfg1.win 2).cut (grid1.coords t) ((dat1 V c).after 2 t) = _
  rw [after1_2]
  unfold out1_2
  rw [View.canon_unit_zero zero_off]
  simp only [View.ld_unit_zero (S := S20000x64) zero_off]
  obtain ⟨e0, e1, e2, e3, e4, e5⟩ := idx_facts t
  funext j
  refine (pay_apply _ _ _).trans ?_
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 64 + 1 * (j 1).val = win1_2.index t (1 : Fin 2) * 64 + 1 * (j 1).val; omega
  show garr V c (((cfg1.win 0).blk t).view.emb j) * aarr V c (((cfg1.win 1).blk t).view.emb j)
    = garr V c (((cfg1.win 2).blk t).view.emb j) * aarr V c (((cfg1.win 2).blk t).view.emb j)
  rw [h0, h1]

/-- An index of the output array is in point `t`'s block iff each coordinate is in the block's range. -/
theorem mem_blk (t : Fin cfg1.N) (i : S1000000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v12).slice (win1_2.rect t)).set ↔ _
  rw [View.set_slice_whole, Rect.mem_set_unit]
  exact Iff.rfl

/-- Row `r` lies in the block of point `r / 20000`: the 50 blocks tile the array. -/
theorem cover (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : cfg1.N = 50 := N_1
  have hlt : (i 0).val / 20000 < cfg1.N := by rw [hN]; omega
  obtain ⟨e0, e1, e2, e3, e4, e5⟩ := idx_facts ⟨(i 0).val / 20000, hlt⟩
  refine ⟨⟨(i 0).val / 20000, hlt⟩, flush1_2 _, ?_⟩
  rw [mem_blk]
  intro a
  match a with
  | ⟨0, _⟩ =>
    show win1_2.index ⟨(i 0).val / 20000, hlt⟩ (0 : Fin 2) * 20000 ≤ (i 0).val ∧ (i 0).val < win1_2.index ⟨(i 0).val / 20000, hlt⟩ (0 : Fin 2) * 20000 + 20000
    rw [e4]; show (i 0).val / 20000 * 20000 ≤ (i 0).val ∧ (i 0).val < (i 0).val / 20000 * 20000 + 20000; omega
  | ⟨1, _⟩ =>
    show win1_2.index ⟨(i 0).val / 20000, hlt⟩ (1 : Fin 2) * 64 ≤ (i 1).val ∧ (i 1).val < win1_2.index ⟨(i 0).val / 20000, hlt⟩ (1 : Fin 2) * 64 + 64
    rw [e5]; omega

/-- The output array after the region: the entrywise product of the two arrays it was entered with. -/
theorem final (c : Dev nD) : (dat1 V c).arrAt 2 cfg1.N = mulf (garr V c) (aarr V c) :=
  (dat1 V c).arrAt_eq_of_cover 2 (mulf (garr V c) (aarr V c)) (fun t _ => flushed_eq V c t) cover

end Cert.KernelIdeal.Scale

end
-- ==== Proof.Result.lean ====
/-
  The whole program's result as one function of its five arguments.
  Between the two regions a stretch of host operations splits the 2 × 1000000 index array into its source row
  and its destination row, wraps a negative source index by adding 100000, and gathers the rows of the first
  region's output at the source indices; the second region multiplies the gathered rows by the edge attributes;
  the closing stretch adds the products into 100000 rows of zeros at the destination indices and adds the bias
  to every row. Each boundary's contents are the previous boundary's with that segment's results written, so
  the result array is read back segment by segment: the closing stretch's operations over the second region's
  output, that output as the entrywise product of the gathered rows and the attributes, the gathered rows over
  the first region's output, and that output as the product of the first and the fourth argument.
-/
import proofs.«174056_j51737176047901_1_alg».proof.Proof.WholeRun
import proofs.«174056_j51737176047901_1_alg».proof.Proof.Project
import proofs.«174056_j51737176047901_1_alg».proof.Proof.Scale
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

/-- The source row of the index array, a negative entry wrapped by adding 100000, as a column of row indices. -/
def srcRows (e : (⟨S2x1000000, .i32⟩ : BufTy).Contents (Elt Ideal)) : (⟨S1000000x1, .i32⟩ : BufTy).Contents (Elt Ideal) :=
  broadcastInDim S1000000x1 ![0] bcast_S1000000_S1000000x1_0
    (select (cmpi .slt (shapeCast _ (extractStridedSlice S1x1000000 ![0, 0] e slices_S2x1000000_S1x1000000_0_0) shapeCasts_S1x1000000_S1000000) (broadcastInDim S1000000 ![] bcast_S_S1000000 (constantI S_ 32 0#32)))
      (addi (shapeCast _ (extractStridedSlice S1x1000000 ![0, 0] e slices_S2x1000000_S1x1000000_0_0) shapeCasts_S1x1000000_S1000000) (broadcastInDim S1000000 ![] bcast_S_S1000000 (constantI S_ 32 100000#32)))
      (shapeCast _ (extractStridedSlice S1x1000000 ![0, 0] e slices_S2x1000000_S1x1000000_0_0) shapeCasts_S1x1000000_S1000000))

/-- The destination row of the index array, as a column of row indices. -/
def dstRows (e : (⟨S2x1000000, .i32⟩ : BufTy).Contents (Elt Ideal)) : (⟨S1000000x1, .i32⟩ : BufTy).Contents (Elt Ideal) :=
  broadcastInDim S1000000x1 ![0] bcast_S1000000_S1000000x1_0
    (shapeCast _ (extractStridedSlice S1x1000000 ![1, 0] e slices_S2x1000000_S1x1000000_1_0) shapeCasts_S1x1000000_S1000000)

/-- The result: the rows of `x · w` gathered at the source indices, times the attributes, summed into the
    destination rows of a zero array, plus the bias on every row. -/
def out (x : (⟨S100000x128, .f32⟩ : BufTy).Contents (Elt Ideal)) (e : (⟨S2x1000000, .i32⟩ : BufTy).Contents (Elt Ideal))
    (a : (⟨S1000000x64, .f32⟩ : BufTy).Contents (Elt Ideal)) (w : (⟨S128x64, .f32⟩ : BufTy).Contents (Elt Ideal))
    (b : (⟨S64, .f32⟩ : BufTy).Contents (Elt Ideal)) : (⟨S100000x64, .f32⟩ : BufTy).Contents (Elt Ideal) :=
  addf (F := Ideal)
    (Host.scatterAdd (F := Ideal) scatter_S100000x64_S1000000x1_S1000000x64_1_0_0_1
      (broadcastInDim S100000x64 ![] bcast_S_S100000x64 (constant (F := Ideal) S_ .f32 0x00000000#32))
      (dstRows e)
      (mulf (F := Ideal) (Host.gather gather_S100000x64_S1000000x1_S1000000x64_1_0_n_n_0_1_164 (Project.prod x w) (srcRows e)) a))
    (broadcastInDim S100000x64 ![0, 1] bcast_S1x64_S100000x64_0_1 (broadcastInDim S1x64 ![1] bcast_S64_S1x64_1 b))

variable (m : (ℓ : Loc nD τ sig) → Buf (Elt Ideal) ℓ) (ρ : Dev nD → PrngReg)

/-! ## After the first region -/

/-- The first region's output array holds the product of the first and the fourth argument. -/
theorem W1_v0 (c : Dev nD) : W1 m ρ c (Proc.devRef .tc main_v0)
    = Project.prod (m ((c : Thread nD τ).loc main_arg0)) (m ((c : Thread nD τ).loc main_arg3)) :=
  (W1_arr m ρ c 2).trans (Project.final (V0 m ρ) c)

/-- The first region leaves the index array, the attributes and the bias as launched. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg4 (c : Dev nD) : W1 m ρ c (Proc.devRef .tc main_arg4) = m ((c : Thread nD τ).loc main_arg4) :=
  W1_of_ne m ρ c main_arg4 (by decide)

/-! ## After the stretch between the regions -/

/-- The gathered rows. -/
theorem W2_v11 (c : Dev nD) : W2 m ρ c (Proc.devRef .tc main_v11)
    = Host.gather gather_S100000x64_S1000000x1_S1000000x64_1_0_n_n_0_1_164 (Project.prod (m ((c : Thread nD τ).loc main_arg0)) (m ((c : Thread nD τ).loc main_arg3))) (srcRows (m ((c : Thread nD τ).loc main_arg1))) := by
  show StableHlo.after hostOps1 (W1 m ρ c) (Proc.devRef .tc main_v11) = _
  after_results
  rw [W1_v0, W1_arg1]
  rfl

/-- The destination indices, as a rank-1 array. -/
theorem W2_v4 (c : Dev nD) : W2 m ρ c (Proc.devRef .tc main_v4)
    = shapeCast _ (extractStridedSlice S1x1000000 ![1, 0] (m ((c : Thread nD τ).loc main_arg1)) slices_S2x1000000_S1x1000000_1_0) shapeCasts_S1x1000000_S1000000 := by
  show StableHlo.after hostOps1 (W1 m ρ c) (Proc.devRef .tc main_v4) = _
  after_results
  rw [W1_arg1]
  rfl

/-- The stretch writes neither the attributes nor the bias. -/
theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_arg2 m ρ c
theorem W2_arg4 (c : Dev nD) : W2 m ρ c (Proc.devRef .tc main_arg4) = m ((c : Thread nD τ).loc main_arg4) := by
  show StableHlo.after hostOps1 (W1 m ρ c) (Proc.devRef .tc main_arg4) = _
  after_results
  exact W1_arg4 m ρ c

/-! ## After the second region -/

/-- The second region's output array holds the gathered rows times the attributes. -/
theorem W3_v12 (c : Dev nD) : W3 m ρ c (Proc.devRef .tc main_v12)
    = mulf (F := Ideal) (Host.gather gather_S100000x64_S1000000x1_S1000000x64_1_0_n_n_0_1_164 (Project.prod (m ((c : Thread nD τ).loc main_arg0)) (m ((c : Thread nD τ).loc main_arg3))) (srcRows (m ((c : Thread nD τ).loc main_arg1))))
        (m ((c : Thread nD τ).loc main_arg2)) := by
  refine ((W3_arr m ρ c 2).trans (Scale.final (V2 m ρ) c)).trans ?_
  show mulf (F := Ideal) (s := S1000000x64) (φ := .f32) (W2 m ρ c (Proc.devRef .tc main_v11)) (W2 m ρ c (Proc.devRef .tc main_arg2)) = _
  rw [W2_v11, W2_arg2]

theorem W3_v4 (c : Dev nD) : W3 m ρ c (Proc.devRef .tc main_v4)
    = shapeCast _ (extractStridedSlice S1x1000000 ![1, 0] (m ((c : Thread nD τ).loc main_arg1)) slices_S2x1000000_S1x1000000_1_0) shapeCasts_S1x1000000_S1000000 :=
  (W3_of_ne m ρ c main_v4 (by decide)).trans (W2_v4 m ρ c)
theorem W3_arg4 (c : Dev nD) : W3 m ρ c (Proc.devRef .tc main_arg4) = m ((c : Thread nD τ).loc main_arg4) :=
  (W3_of_ne m ρ c main_arg4 (by decide)).trans (W2_arg4 m ρ c)

/-! ## After the closing stretch -/

/-- The result array at the last boundary is `out` of the five arguments as launched. -/
theorem value (c : Dev nD) : W4 m ρ c (Proc.devRef .tc main_v18)
    = out (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps2 (W3 m ρ c) (Proc.devRef .tc main_v18) = _
  after_results
  rw [W3_v12, W3_v4, W3_arg4]
  rfl

/-- The program's run with its result named: every weakly fair execution terminates without a fault, the result
    array holds `out` of the arguments and the arguments are unchanged. -/
theorem run : θ_run defs (onTc (τ := τ) (main (F := Ideal))) ⟨m, fun _ => 0, ρ⟩ (fun r => ∀ c : Dev nD,
      r.2.mem ((c.tc : Thread nD τ).loc main_v18)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value m ρ c), (h c).2⟩) (Whole.run m ρ)

end Cert.KernelIdeal.Result

end
-- ==== Proof.Bridge.lean ====
/-
  The reference against the program. The reference computes the same chain with two host operations where the
  program has its regions: a contraction of the first and the fourth argument over the 128 shared positions,
  which on exact values is the sum over k of x (r, k) · w (k, j), the very function the first region's output
  holds; and an entrywise product, which is what the second region's output holds. Every other operation — the
  split of the index array, the wrap of negative source indices, the gather, the sum into destination rows,
  the bias — is the same operation with the same constants on both sides, so with the arguments equal the two
  results are the same function of them. No law that fails at an infinity is used, so the arguments' finiteness
  is not needed.
-/
import proofs.«174056_j51737176047901_1_alg».proof.Defs
import proofs.«174056_j51737176047901_1_alg».proof.Proof.Result
import proofs.«174056_j51737176047901_1_alg».proof.Proof.Gen.ReferenceIdeal.Run
import proofs.«174056_j51737176047901_1_alg».proof.Proof.Gen.ReferenceIdeal.Read
import proofs.«174056_j51737176047901_1_alg».proof.Proof.Gen.Pre_finite_inputs

noncomputable section

namespace Cert.Bridge

open Idealize.ShloMosaic Idealize.ShloMosaic.TcCoe Idealize.SL.Sem

/-- The host's contraction of a 100000 × 128 array with a 128 × 64 array is, entry by entry, the sum over the
    128 contracted positions of left entry times right entry. -/
theorem contraction_eq (x : FVec Ideal Cert.ReferenceIdeal.S100000x128 .f32) (w : FVec Ideal Cert.ReferenceIdeal.S128x64 .f32) :
    Host.dotGeneral (F := Ideal) Cert.ReferenceIdeal.dot_S100000x128_S128x64_S100000x64_1_0_0_1_n_n none x w = Cert.KernelIdeal.Project.prod x w := by
  funext i
  have h := Cert.ReferenceIdeal.Read.val_main_v0_apply x w i
  unfold Cert.ReferenceIdeal.Read.val_main_v0 at h
  exact h

/-- From memories that agree on the five arguments both programs end with the result array at the same function
    of them. -/
theorem algebraic : Cert.algebraic_KernelIdeal_ReferenceIdeal := by
  intro m ρ m' ρ' _ hagree
  refine ⟨fun c => Cert.KernelIdeal.Result.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [contraction_eq]
  rfl

end Cert.Bridge

end
-- ==== Proof.lean ====
/-
  The program multiplies a 100000 × 128 array by a 128 × 64 array in row blocks of 5000, gathers rows of the
  product at the source indices of an index array, multiplies them entry by entry with a 1000000 × 64 array in
  row blocks of 20000, sums the products into the destination rows of a 100000 × 64 zero array and adds a bias
  to every row. The reference does the same with one whole contraction and one whole entrywise product.
  On exact values both end with the same function of the five arguments:
  `Proof/Project.lean` (the first region's output is the product, index by index), `Proof/Scale.lean` (the second
  region's output is the entrywise product), `Proof/Result.lean` (the result array read back through the regions
  and the host operations between and after them) and `Proof/Bridge.lean` (the reference's contraction is the
  same sum, and the rest of the two chains are the same operations). The three programs' termination and the
  arguments' preservation are the generated frames and the reference's generated run; the idealization rewrote
  no operation, so nothing is owed for it.
-/
import proofs.«174056_j51737176047901_1_alg».proof.Defs
import proofs.«174056_j51737176047901_1_alg».proof.Proof.Gen.Kernel
import proofs.«174056_j51737176047901_1_alg».proof.Proof.Gen.Kernel.Skeleton
import proofs.«174056_j51737176047901_1_alg».proof.Proof.Gen.Kernel.Launch
import proofs.«174056_j51737176047901_1_alg».proof.Proof.Gen.Kernel.Points
import proofs.«174056_j51737176047901_1_alg».proof.Proof.Gen.Kernel.Frame
import proofs.«174056_j51737176047901_1_alg».proof.Proof.Gen.KernelIdeal
import proofs.«174056_j51737176047901_1_alg».proof.Proof.Gen.KernelIdeal.Skeleton
import proofs.«174056_j51737176047901_1_alg».proof.Proof.Gen.KernelIdeal.Launch
import proofs.«174056_j51737176047901_1_alg».proof.Proof.Gen.KernelIdeal.Points
import proofs.«174056_j51737176047901_1_alg».proof.Proof.Gen.KernelIdeal.Frame
import proofs.«174056_j51737176047901_1_alg».proof.Proof.Gen.ReferenceIdeal
import proofs.«174056_j51737176047901_1_alg».proof.Proof.Gen.Pre_finite_inputs
import proofs.«174056_j51737176047901_1_alg».proof.Proof.Gen.ReferenceIdeal.Run
import proofs.«174056_j51737176047901_1_alg».proof.Proof.Gen.ReferenceIdeal.Read
import proofs.«174056_j51737176047901_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
